-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 77
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x64, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x64, .f32⟩
  | .hbm, ⟨68, _⟩ => ⟨S1700000x1, .f32⟩
  | .hbm, ⟨69, _⟩ => ⟨S1700000x64, .f32⟩
  | .hbm, ⟨70, _⟩ => ⟨S1700000x64, .f32⟩
  | .hbm, ⟨71, _⟩ => ⟨S_, .f32⟩
  | .hbm, ⟨72, _⟩ => ⟨S100000x64, .f32⟩
  | .hbm, ⟨73, _⟩ => ⟨S1700000x1, .i32⟩
  | .hbm, ⟨74, _⟩ => ⟨S100000x64, .f32⟩
  | .hbm, ⟨75, _⟩ => ⟨S1x64, .f32⟩
  | .hbm, ⟨76, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S_, .f32⟩
  | .hbm, ⟨64, _⟩ => ⟨S1700000, .f32⟩
  | .hbm, ⟨65, _⟩ => ⟨S_, .f32⟩
  | .hbm, ⟨66, _⟩ => ⟨S100000, .f32⟩
  | .hbm, ⟨67, _⟩ => ⟨S1700000x1, .i32⟩
  | .hbm, ⟨68, _⟩ => ⟨S100000, .f32⟩
  | .hbm, ⟨69, _⟩ => ⟨S100000, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x64, .f32⟩
  | .hbm, ⟨98, _⟩ => ⟨S1700000x1, .f32⟩
  | .hbm, ⟨99, _⟩ => ⟨S1700000x64, .f32⟩
  | .hbm, ⟨100, _⟩ => ⟨S1700000x64, .f32⟩
  | .hbm, ⟨101, _⟩ => ⟨S_, .f32⟩
  | .hbm, ⟨102, _⟩ => ⟨S100000x64, .f32⟩
  | .hbm, ⟨103, _⟩ => ⟨S1700000x1, .i32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
import proofs.«168569_j17514876634158_1_alg».proof.ReferenceIdeal
import proofs.«168569_j17514876634158_1_alg».proof.Proof.Gen.ReferenceIdeal

/-! # Two graph-convolution layers, as one function of the inputs

`x` holds a feature row per node, `edges` two rows of node numbers (sources above targets). Every node gets a loop
to itself, so the edge list has 1600000 + 100000 entries. A node's degree is the number of edges that point at it,
`d = degree^(-1/2)`, and edge `e` from `s` to `t` has weight `d s · d t` (a negative node number counts from the end,
as array indexing does). A layer sends `h` to `A (h · W) + b`, where row `t` of `A g` is the sum over the edges `e`
into `t` of `weight e · g (source e)`. The network is `A (relu (A (x · W1) + b1) · W2) + b2`.
The functions below spell this with the host operations, so that both programs' results can be stated with them. -/

noncomputable section

namespace Cert.Gcn

open Idealize.ShloMosaic Cert.ReferenceIdeal
open Cert.ReferenceIdeal.Facts₀ Cert.ReferenceIdeal.Facts

variable {F : FTy → Type} [FloatOps F]

/-- Row `r` of the edge array followed by every node's own number. -/
def sources (edges : (⟨S2x1600000, .i32⟩ : BufTy).Contents (Elt F)) : (⟨S1700000, .i32⟩ : BufTy).Contents (Elt F) :=
  concatenate S1700000 0 [⟨S1600000, shapeCast S1600000 (extractStridedSlice S1x1600000 ![0, 0] edges slices_S2x1600000_S1x1600000_0_0) shapeCasts_S1x1600000_S1600000⟩, ⟨S100000, iotaInDim S100000 32 0⟩] concatenates_S1600000_S100000_S1700000_d0

def targets (edges : (⟨S2x1600000, .i32⟩ : BufTy).Contents (Elt F)) : (⟨S1700000, .i32⟩ : BufTy).Contents (Elt F) :=
  concatenate S1700000 0 [⟨S1600000, shapeCast S1600000 (extractStridedSlice S1x1600000 ![1, 0] edges slices_S2x1600000_S1x1600000_1_0) shapeCasts_S1x1600000_S1600000⟩, ⟨S100000, iotaInDim S100000 32 0⟩] concatenates_S1600000_S100000_S1700000_d0

/-- A negative node number counts from the end. -/
def wrapped (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- `degree^(-1/2)` per node: one is added at every edge's target, then the inverse square root. -/
def invSqrtDegree (edges : (⟨S2x1600000, .i32⟩ : BufTy).Contents (Elt F)) : (⟨S100000, .f32⟩ : BufTy).Contents (Elt F) :=
  Host.rsqrt (Host.scatterAdd scatter_S100000_S1700000x1_S1700000_n_0_0_1
    (broadcastInDim S100000 ![] bcast_S_S100000 (constant S_ .f32 0x00000000#32))
    (broadcastInDim S1700000x1 ![0] bcast_S1700000_S1700000x1_0 (targets edges))
    (broadcastInDim S1700000 ![] bcast_S_S1700000 (constant S_ .f32 0x3F800000#32)))

/-- The weight of every edge. -/
def edgeWeight (edges : (⟨S2x1600000, .i32⟩ : BufTy).Contents (Elt F)) : (⟨S1700000, .f32⟩ : BufTy).Contents (Elt F) :=
  mulf (Host.gather gather_S100000_S1700000x1_S1700000_n_0_n_n_0_1_1 (invSqrtDegree edges)
      (broadcastInDim S1700000x1 ![0] bcast_S1700000_S1700000x1_0 (wrapped (sources edges))))
    (Host.gather gather_S100000_S1700000x1_S1700000_n_0_n_n_0_1_1 (invSqrtDegree edges)
      (broadcastInDim S1700000x1 ![0] bcast_S1700000_S1700000x1_0 (wrapped (targets edges))))

/-- Messages along the edges summed at their targets, for rows of 128 features: from node numbers and weights. -/
def spread128 (src dst : (⟨S1700000, .i32⟩ : BufTy).Contents (Elt F)) (w : (⟨S1700000, .f32⟩ : BufTy).Contents (Elt F))
    (g : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (Host.gather gather_S100000x128_S1700000x1_S1700000x128_1_0_n_n_0_1_1128 g
        (broadcastInDim S1700000x1 ![0] bcast_S1700000_S1700000x1_0 (wrapped src)))
      (broadcastInDim S1700000x128 ![0, 1] bcast_S1700000x1_S1700000x128_0_1 (broadcastInDim S1700000x1 ![0] bcast_S1700000_S1700000x1_0 w)))

/-- The same for rows of 64 features. -/
def spread64 (src dst : (⟨S1700000, .i32⟩ : BufTy).Contents (Elt F)) (w : (⟨S1700000, .f32⟩ : BufTy).Contents (Elt F))
    (g : (⟨S100000x64, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 g
        (broadcastInDim S1700000x1 ![0] bcast_S1700000_S1700000x1_0 (wrapped src)))
      (broadcastInDim S1700000x64 ![0, 1] bcast_S1700000x1_S1700000x64_0_1 (broadcastInDim S1700000x1 ![0] bcast_S1700000_S1700000x1_0 w)))

/-- `relu (a + b)`, the bias row laid under every row. -/
def biasRelu (a : (⟨S100000x128, .f32⟩ : BufTy).Contents (Elt F)) (b : (⟨S128, .f32⟩ : BufTy).Contents (Elt F)) :
    (⟨S100000x128, .f32⟩ : BufTy).Contents (Elt F) :=
  maximumf (addf a (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- `a + b`, the bias row laid under every row. -/
def bias (a : (⟨S100000x64, .f32⟩ : BufTy).Contents (Elt F)) (b : (⟨S64, .f32⟩ : BufTy).Contents (Elt F)) :
    (⟨S100000x64, .f32⟩ : BufTy).Contents (Elt F) :=
  addf a (broadcastInDim S100000x64 ![0, 1] bcast_S1x64_S100000x64_0_1 (broadcastInDim S1x64 ![1] bcast_S64_S1x64_1 b))

/-- `h · W` for the two layers. -/
def times128 (h : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none h w
def times64 (h : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none h w

/-- The first layer with its relu. -/
def hidden (x : (⟨S100000x128, .f32⟩ : BufTy).Contents (Elt F)) (edges : (⟨S2x1600000, .i32⟩ : BufTy).Contents (Elt F))
    (w1 : (⟨S128x128, .f32⟩ : BufTy).Contents (Elt F)) (b1 : (⟨S128, .f32⟩ : BufTy).Contents (Elt F)) :
    (⟨S100000x128, .f32⟩ : BufTy).Contents (Elt F) :=
  biasRelu (spread128 (sources edges) (targets edges) (edgeWeight edges) (times128 x w1)) b1

/-- The network. -/
def output (x : (⟨S100000x128, .f32⟩ : BufTy).Contents (Elt F)) (edges : (⟨S2x1600000, .i32⟩ : BufTy).Contents (Elt F))
    (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S100000x64, .f32⟩ : BufTy).Contents (Elt F) :=
  bias (spread64 (sources edges) (targets edges) (edgeWeight edges) (times64 (hidden x edges w1 b1) w2)) b2

end Cert.Gcn

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibRowBlock.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«168569_j17514876634158_1_alg».proof.Proof.LibPlainDot

noncomputable section

open scoped BigOperators

/-! # Row blocks of two-axis arrays

An array of `M = T · R` rows cut into `T` blocks of `R` rows (`Layout.block … 0 T t`: rows `t·R … t·R + R − 1`).
Every operation that works row by row commutes with taking a row block: the block of the result is the
operation applied to the blocks. Stated here for the operations of a dense layer: a product with a matrix
shared by all rows, a concatenation along the columns, a column slice, a bias row added to every row, a
constant, and the pointwise operations. With these, a computation on one block of rows is read as the
block of the same computation on the whole array. -/

namespace Cert.RowBlock

open Idealize.ShloMosaic Idealize.ShloMosaic.ValueIdx Idealize.ShloMosaic.Layout

variable {R M T : ℕ} {α : Type}

/-- Where entry `(r, q)` of block `t` lies in the whole array: row `t·R + r`, column `q`. -/
theorem idx_rows {N : ℕ} (hN : Tiles ⟨2, ![R, N]⟩ ⟨2, ![M, N]⟩ 0 T) (t : Fin T) (y : (⟨2, ![R, N]⟩ : Shape).Idx) :
    (hN.idx t y 0).val = t.val * R + (y 0).val ∧ (hN.idx t y 1).val = (y 1).val := ⟨rfl, rfl⟩

/-- The unit word is the real number one. -/
theorem ofBits_one : Ideal.ofBits .f32 0x3F800000#32 = 1 := by
  simp [Ideal.ofBits, Ideal.ieee, -EReal.coe_mul]; norm_num

/-! ## A product with a shared matrix -/

/-- Rows `t·R …` of `X · W` are (rows `t·R …` of `X`) `· W`: entry `(r, c)` of either is
    `∑ k, X (t·R + r, k) · W (k, c)`. The block's product is a matrix-unit product into the zero accumulator,
    the whole array's a host product; on the extended reals both are that sum. -/
theorem dot_rows {K N : ℕ} {φ₁ φ₂ : FTy}
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (block ⟨2, ![R, K]⟩ ⟨2, ![M, K]⟩ 0 T t X hK) W (constant ⟨2, ![R, N]⟩ .f32 0x00000000#32)
      = block ⟨2, ![R, N]⟩ ⟨2, ![M, N]⟩ 0 T t (Host.dotGeneral d₂ p₂ X W) hN := by
  funext y
  refine (Cert.PlainDot.matmul_zero_apply d₁ hd₁ p₁ _ W y).trans ?_
  refine Eq.trans ?_ (Cert.PlainDot.dotGeneral_apply d₂ hd₂ p₂ .single X W (hN.idx t y)).symm
  refine Finset.sum_congr rfl fun k _ => ?_
  have e1 : hK.idx t (ix2 (y 0) k) = ix2 (hN.idx t y 0) k := by
    funext a
    match a with
    | ⟨0, _⟩ => exact Fin.ext rfl
    | ⟨1, _⟩ => exact Fin.ext rfl
  have e2 : (ix2 k (y 1) : (⟨2, ![K, N]⟩ : Shape).Idx) = ix2 k (hN.idx t y 1) := by
    funext a
    match a with
    | ⟨0, _⟩ => exact Fin.ext rfl
    | ⟨1, _⟩ => exact Fin.ext rfl
  rw [block_apply, e1, e2]
  rfl

/-- The same with both operands first rounded to a narrower format, which on the extended reals changes nothing. -/
theorem dot_rows_trunc {K N : ℕ} {φ₁ φ₂ ψ₁ ψ₂ : FTy} (h₁ : ψ₁.bits < φ₁.bits) (h₂ : ψ₂.bits < φ₂.bits)
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (truncf ψ₁ (block ⟨2, ![R, K]⟩ ⟨2, ![M, K]⟩ 0 T t X hK) h₁) (truncf ψ₂ W h₂) (constant ⟨2, ![R, N]⟩ .f32 0x00000000#32)
      = block ⟨2, ![R, N]⟩ ⟨2, ![M, N]⟩ 0 T t (Host.dotGeneral d₂ p₂ X W) hN :=
  dot_rows (φ₁ := φ₁) (φ₂ := φ₂) d₁ hd₁ d₂ hd₂ hK hN p₁ p₂ t X W

/-! ## Pointwise operations -/

section Pointwise
variable {N : ℕ} {φ : FTy} (hN : Tiles ⟨2, ![R, N]⟩ ⟨2, ![M, N]⟩ 0 T) (t : Fin T)
  (X Y : FVec Ideal ⟨2, ![M, N]⟩ φ)

theorem addf_rows : addf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (addf X Y) hN := rfl
theorem subf_rows : subf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (subf X Y) hN := rfl
theorem mulf_rows : mulf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (mulf X Y) hN := rfl
theorem maximumf_rows : maximumf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (maximumf X Y) hN := rfl
/-- The kernel's hyperbolic tangent and the host's are one function on the extended reals. -/
theorem tanh_rows : tanh (block ⟨2, ![R, N]⟩ ⟨2, ![M, N]⟩ 0 T t X hN)
    = block ⟨2, ![R, N]⟩ ⟨2, ![M, N]⟩ 0 T t (Host.tanh X) hN := rfl
/-- The logistic function is `1 / (1 + e^(−x))`, which the host spells out with the unit word for `1`. -/
theorem logistic_rows (hb : (⟨0, ![]⟩ : Shape).BroadcastsInDim ⟨2, ![M, N]⟩ (![] : Fin 0 → Fin 2)) :
    logistic (block ⟨2, ![R, N]⟩ ⟨2, ![M, N]⟩ 0 T t (X : FVec Ideal ⟨2, ![M, N]⟩ .f32) hN)
    = block ⟨2, ![R, N]⟩ ⟨2, ![M, N]⟩ 0 T t
        (Host.divf (broadcastInDim ⟨2, ![M, N]⟩ ![] hb (constant (F := Ideal) ⟨0, ![]⟩ .f32 0x3F800000#32))
          (addf (broadcastInDim ⟨2, ![M, N]⟩ ![] hb (constant (F := Ideal) ⟨0, ![]⟩ .f32 0x3F800000#32)) (Host.exp (Host.negf X)))) hN := by
  funext y
  show FloatOps.logistic (X (hN.idx t y))
    = FloatOps.hostDivf (Ideal.ofBits .f32 0x3F800000#32)
        (FloatOps.addf (Ideal.ofBits .f32 0x3F800000#32) (FloatOps.hostUnary .exp (FloatOps.hostNegf (X (hN.idx t y)))))
  rw [ofBits_one]
  rfl
end Pointwise

/-! ## Constants, bias rows, column slices, concatenation along the columns -/

/-- A constant array's row block is the constant block. -/
theorem splat_rows {N : ℕ} (hN : Tiles ⟨2, ![R, N]⟩ ⟨2, ![M, N]⟩ 0 T) (t : Fin T)
    (hb : (⟨0, ![]⟩ : Shape).BroadcastsInDim ⟨2, ![M, N]⟩ (![] : Fin 0 → Fin 2)) (w : BitVec 32) :
    broadcast ⟨2, ![R, N]⟩ (Scalar.ofBits (F := Ideal) .f32 w)
      = block ⟨2, ![R, N]⟩ ⟨2, ![M, N]⟩ 0 T t (broadcastInDim ⟨2, ![M, N]⟩ ![] hb (constant (F := Ideal) ⟨0, ![]⟩ .f32 w)) hN := by
  funext y
  rfl

/-- A bias row laid under every row: the block sees the same row. -/
theorem bias_rows {N : ℕ} (hN : Tiles ⟨2, ![R, N]⟩ ⟨2, ![M, N]⟩ 0 T) (t : Fin T)
    (hc : (⟨1, ![N]⟩ : Shape).ShapeCasts ⟨2, ![1, N]⟩) (hbt : (⟨2, ![1, N]⟩ : Shape).Broadcasts ⟨2, ![R, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) :
    broadcastTo ⟨2, ![R, N]⟩ (shapeCast ⟨2, ![1, N]⟩ b hc) hbt
      = block ⟨2, ![R, N]⟩ ⟨2, ![M, N]⟩ 0 T t (broadcastInDim ⟨2, ![M, N]⟩ ![0, 1] h2 (broadcastInDim ⟨2, ![1, N]⟩ ![1] h1 b)) hN := by
  funext y
  obtain ⟨p, q, rfl⟩ : ∃ (p : Fin R) (q : Fin N), y = ix2 p q := ⟨y 0, y 1, eq_ix2 y⟩
  rw [broadcastTo_1b_ab_apply, shapeCast_a_1a_apply, block_apply]
  refine Eq.symm ?_
  refine (broadcastInDim_apply ![0, 1] h2 _ (hN.idx t (ix2 p q)) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Columns `o … o + N' − 1`: of the block, or the block of those columns. -/
theorem slice_rows {N N' : ℕ} (o : ℕ) (hN : Tiles ⟨2, ![R, N]⟩ ⟨2, ![M, N]⟩ 0 T) (hN' : Tiles ⟨2, ![R, N']⟩ ⟨2, ![M, N']⟩ 0 T) (t : Fin T)
    (hs : (⟨2, ![R, N]⟩ : Shape).Slices ![0, o] ⟨2, ![R, N']⟩) (hs' : (⟨2, ![M, N]⟩ : Shape).Slices ![0, o] ⟨2, ![M, N']⟩)
    (X : (⟨2, ![M, N]⟩ : Shape).Idx → α) :
    extractStridedSlice ⟨2, ![R, N']⟩ ![0, o] (block ⟨2, ![R, N]⟩ ⟨2, ![M, N]⟩ 0 T t X hN) hs
      = block ⟨2, ![R, N']⟩ ⟨2, ![M, N']⟩ 0 T t (extractStridedSlice ⟨2, ![M, N']⟩ ![0, o] X hs') hN' := by
  funext y
  show X _ = X _
  congr 1
  funext a
  match a with
  | ⟨0, _⟩ =>
    apply Fin.ext
    show t.val * R + (0 + (y 0).val) = 0 + (t.val * R + (y 0).val)
    omega
  | ⟨1, _⟩ => exact Fin.ext rfl

/-- Two arrays side by side: the block of the pair is the pair of the blocks. -/
theorem concat2_rows {N₁ N₂ N : ℕ}
    (h₁ : Tiles ⟨2, ![R, N₁]⟩ ⟨2, ![M, N₁]⟩ 0 T) (h₂ : Tiles ⟨2, ![R, N₂]⟩ ⟨2, ![M, N₂]⟩ 0 T) (hN : Tiles ⟨2, ![R, N]⟩ ⟨2, ![M, N]⟩ 0 T)
    (t : Fin T)
    (hc : Shape.Concatenates [(⟨2, ![R, N₁]⟩ : Shape), ⟨2, ![R, N₂]⟩] ⟨2, ![R, N]⟩ 1)
    (hc' : Shape.Concatenates [(⟨2, ![M, N₁]⟩ : Shape), ⟨2, ![M, N₂]⟩] ⟨2, ![M, N]⟩ 1)
    (A : (⟨2, ![M, N₁]⟩ : Shape).Idx → α) (B : (⟨2, ![M, N₂]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc
      = block ⟨2, ![R, N]⟩ ⟨2, ![M, N]⟩ 0 T t (concatenate ⟨2, ![M, N]⟩ 1 [⟨⟨2, ![M, N₁]⟩, A⟩, ⟨⟨2, ![M, N₂]⟩, B⟩] hc') hN := by
  funext y
  obtain ⟨p, q, rfl⟩ : ∃ (p : Fin R) (q : Fin N), y = ix2 p q := ⟨y 0, y 1, eq_ix2 y⟩
  have hsum : N₁ + (N₂ + (0)) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 0 (by show 0 < 2; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 0 (by show 0 < 2; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 1 (by show 1 < 2; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 1 (by show 1 < 2; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb

/-- Four arrays side by side. -/
theorem concat4_rows {N₁ N₂ N₃ N₄ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩] ⟨2, ![R, N]⟩ 1)
    (hc' : Shape.Concatenates [(⟨2, ![M, N₁]⟩ : Shape), ⟨2, ![M, N₂]⟩, ⟨2, ![M, N₃]⟩, ⟨2, ![M, N₄]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩,
        ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩] hc') hN := by
  funext y
  obtain ⟨p, q, rfl⟩ : ∃ (p : Fin R) (q : Fin N), y = ix2 p q := ⟨y 0, y 1, eq_ix2 y⟩
  have hsum : N₁ + (N₂ + (N₃ + (N₄ + (0)))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 0 (by show 0 < 4; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 0 (by show 0 < 4; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 1 (by show 1 < 4; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 1 (by show 1 < 4; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 2 (by show 2 < 4; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 2 (by show 2 < 4; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 3 (by show 3 < 4; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 3 (by show 3 < 4; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb

end Cert.RowBlock

end
-- ==== Proof.Proj1.lean ====
import proofs.«168569_j17514876634158_1_alg».proof.Proof.Gen.KernelIdeal.Frame
import proofs.«168569_j17514876634158_1_alg».proof.Proof.Gen.ReferenceIdeal
import proofs.«168569_j17514876634158_1_alg».proof.Proof.LibRowBlock
import Idealize.ShloMosaic.Lib.Pipeline.Value

/-! # The first projection: rows of `x · W1`, ten thousand at a time

The first launch walks the 100000 rows of `x` in ten blocks of 10000. At block `t` it multiplies rows
`10000·t … 10000·t + 9999` of `x` by the whole 128 × 128 matrix and writes the product to the same rows of the
result. On the extended reals a product of a block of rows is the block of rows of the product, so when the ten
blocks have been written the result array holds `x · W1`, entry `(r, q)` being `∑ k, x (r, k) · W1 (k, q)`. -/

noncomputable section

namespace Cert.Gcn.Proj1

open Idealize.ShloMosaic Idealize.ShloMosaic.ValueIdx Idealize.ShloMosaic.Layout Idealize.ShloMosaic.TcCoe
open Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The rows split into ten blocks of ten thousand. -/
theorem rows : Tiles S10000x128 S100000x128 0 10 := by decide

/-- A grid point as a block number. -/
abbrev blockNo (t : Fin cfg0.N) : Fin 10 := ⟨t.val, lt_of_lt_of_eq t.isLt N_0⟩

/-- The index maps: `x` and the result move one block of rows per point, the matrix stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of `x` the body sees at point `t` is rows `10000·t …` of `x`. -/
theorem lhs_block (c : Dev nD) (t : Fin cfg0.N) :
    iblk0 V c 0 t = block S10000x128 S100000x128 0 10 (blockNo t) (V c main_arg0) rows := by
  funext y
  show V c main_arg0 (((cfg0.win 0).blk t).view.emb y) = V c main_arg0 (rows.idx (blockNo t) y)
  refine congrArg _ ?_
  obtain ⟨e0, e1, -⟩ := index_maps t
  funext a; apply Fin.ext
  match a with
  | ⟨0, _⟩ => show win0_0.index t (0 : Fin 2) * 10000 + 1 * (y 0).val = t.val * 10000 + (y 0).val; omega
  | ⟨1, _⟩ => show win0_0.index t (1 : Fin 2) * 128 + 1 * (y 1).val = (y 1).val; omega

/-- The matrix is seen whole at every point. -/
theorem rhs_block (c : Dev nD) (t : Fin cfg0.N) : iblk0 V c 1 t = V c main_arg2 := by
  funext y
  show V c main_arg2 (((cfg0.win 1).blk t).view.emb y) = V c main_arg2 y
  refine congrArg _ ?_
  obtain ⟨-, -, e2, e3, -⟩ := index_maps t
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Reading point `t`'s block of the result array is taking rows `10000·t …`. -/
theorem out_block (t : Fin cfg0.N) (G : S100000x128.Idx → Elt Ideal .f32) :
    ((cfg0.win 2).blk t).view.read (Elt Ideal) G = block S10000x128 S100000x128 0 10 (blockNo t) G rows := by
  funext y
  show G (((cfg0.win 2).blk t).view.emb y) = G (rows.idx (blockNo t) y)
  refine congrArg _ ?_
  obtain ⟨-, -, -, -, e4, e5⟩ := index_maps t
  funext a; apply Fin.ext
  match a with
  | ⟨0, _⟩ => show win0_2.index t (0 : Fin 2) * 10000 + 1 * (y 0).val = t.val * 10000 + (y 0).val; omega
  | ⟨1, _⟩ => show win0_2.index t (1 : Fin 2) * 128 + 1 * (y 1).val = (y 1).val; omega

/-- The whole product, as the reference spells it. -/
abbrev product (x : FVec Ideal S100000x128 .f32) (w : FVec Ideal S128x128 .f32) : FVec Ideal S100000x128 .f32 :=
  Host.dotGeneral Cert.ReferenceIdeal.dot_S100000x128_S128x128_S100000x128_1_0_0_1_n_n none x w

/-- What the body computes from a block of rows is that block of rows of the product. -/
theorem payload_rows (t : Fin 10) (x : FVec Ideal S100000x128 .f32) (w : FVec Ideal S128x128 .f32) :
    k0_pay1 (F := Ideal) (block S10000x128 S100000x128 0 10 t x rows) w
      = block S10000x128 S100000x128 0 10 t (product x w) rows := by
  unfold k0_pay1
  exact Cert.RowBlock.dot_rows_trunc (φ₁ := .f32) (φ₂ := .f32) bitsLt_bf16_f32 bitsLt_bf16_f32
    dot_S10000x128_S128x128_S10000x128_1_0_0_1_n_n rfl
    Cert.ReferenceIdeal.dot_S100000x128_S128x128_S100000x128_1_0_0_1_n_n rfl rows rows none none t x w

/-- What point `t` writes back is block `t` of the product of the arrays as the launch finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  rw [lhs_block, rhs_block, out_block]
  exact payload_rows (blockNo t) _ _

/-- An index of the result array lies in point `t`'s block iff each coordinate is in the block's range. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v27).slice (win0_2.rect t)).set ↔ _
  rw [View.set_slice_whole, Rect.mem_set_unit]
  exact Iff.rfl

/-- Every row is in some block: row `r` in block `r / 10000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_2 _, ?_⟩
  rw [mem_block]
  obtain ⟨-, -, -, -, e4, e5⟩ := index_maps ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 128 ≤ (i 1).val ∧ (i 1).val < win0_2.index _ (1 : Fin 2) * 128 + 128; rw [e5]; omega

/-- After the launch the result array holds the product of the arrays the launch found. -/
theorem final (c : Dev nD) :
    (dat0 V c).arrAt 2 cfg0.N = product (V c main_arg0) (V c main_arg2) :=
  (dat0 V c).arrAt_eq_of_cover 2 _ (fun t _ => flushed_eq V c t) covered

end Cert.Gcn.Proj1

end
-- ==== Proof.Proj2.lean ====
import proofs.«168569_j17514876634158_1_alg».proof.Proof.Gen.KernelIdeal.Frame
import proofs.«168569_j17514876634158_1_alg».proof.Proof.Spec
import proofs.«168569_j17514876634158_1_alg».proof.Proof.LibRowBlock
import Idealize.ShloMosaic.Lib.Pipeline.Value

/-! # The second projection: rows of `h · W2`, ten thousand at a time

The third launch walks the 100000 rows of the hidden layer in ten blocks of 10000, multiplies each block by the whole
128 × 64 matrix and writes the product to the same rows of its result. A product of a block of rows is the block of
rows of the product, so the result array ends holding `h · W2`. -/

noncomputable section

namespace Cert.Gcn.Proj2

open Idealize.ShloMosaic Idealize.ShloMosaic.ValueIdx Idealize.ShloMosaic.Layout Idealize.ShloMosaic.TcCoe
open Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Ten blocks of ten thousand rows, of 128 columns and of 64. -/
theorem rows128 : Tiles S10000x128 S100000x128 0 10 := by decide
theorem rows64 : Tiles S10000x64 S100000x64 0 10 := by decide

/-- A grid point as a block number. -/
abbrev blockNo (t : Fin cfg2.N) : Fin 10 := ⟨t.val, lt_of_lt_of_eq t.isLt N_2⟩

/-- The index maps: the hidden layer and the result move one block of rows per point, the matrix stays. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The block of the hidden layer the body sees at point `t` is its rows `10000·t …`. -/
theorem lhs_block (c : Dev nD) (t : Fin cfg2.N) :
    iblk2 V c 0 t = block S10000x128 S100000x128 0 10 (blockNo t) (V c main_v42) rows128 := by
  funext y
  show V c main_v42 (((cfg2.win 0).blk t).view.emb y) = V c main_v42 (rows128.idx (blockNo t) y)
  refine congrArg _ ?_
  obtain ⟨e0, e1, -⟩ := index_maps t
  funext a; apply Fin.ext
  match a with
  | ⟨0, _⟩ => show win2_0.index t (0 : Fin 2) * 10000 + 1 * (y 0).val = t.val * 10000 + (y 0).val; omega
  | ⟨1, _⟩ => show win2_0.index t (1 : Fin 2) * 128 + 1 * (y 1).val = (y 1).val; omega

/-- The matrix is seen whole at every point. -/
theorem rhs_block (c : Dev nD) (t : Fin cfg2.N) : iblk2 V c 1 t = V c main_arg4 := by
  funext y
  show V c main_arg4 (((cfg2.win 1).blk t).view.emb y) = V c main_arg4 y
  refine congrArg _ ?_
  obtain ⟨-, -, e2, e3, -⟩ := index_maps t
  funext a; apply Fin.ext
  match a with
  | ⟨0, _⟩ => show win2_1.index t (0 : Fin 2) * 128 + 1 * (y 0).val = (y 0).val; omega
  | ⟨1, _⟩ => show win2_1.index t (1 : Fin 2) * 64 + 1 * (y 1).val = (y 1).val; omega

/-- Reading point `t`'s block of the result array is taking rows `10000·t …`. -/
theorem out_block (t : Fin cfg2.N) (G : S100000x64.Idx → Elt Ideal .f32) :
    ((cfg2.win 2).blk t).view.read (Elt Ideal) G = block S10000x64 S100000x64 0 10 (blockNo t) G rows64 := by
  funext y
  show G (((cfg2.win 2).blk t).view.emb y) = G (rows64.idx (blockNo t) y)
  refine congrArg _ ?_
  obtain ⟨-, -, -, -, e4, e5⟩ := index_maps t
  funext a; apply Fin.ext
  match a with
  | ⟨0, _⟩ => show win2_2.index t (0 : Fin 2) * 10000 + 1 * (y 0).val = t.val * 10000 + (y 0).val; omega
  | ⟨1, _⟩ => show win2_2.index t (1 : Fin 2) * 64 + 1 * (y 1).val = (y 1).val; omega

/-- What the body computes from a block of rows is that block of rows of the product. -/
theorem payload_rows (t : Fin 10) (h : FVec Ideal S100000x128 .f32) (w : FVec Ideal S128x64 .f32) :
    k2_pay1 (F := Ideal) (block S10000x128 S100000x128 0 10 t h rows128) w
      = block S10000x64 S100000x64 0 10 t (Cert.Gcn.times64 (F := Ideal) h w) rows64 := by
  unfold k2_pay1
  rw [shapeCast_self]
  exact Cert.RowBlock.dot_rows_trunc (φ₁ := .f32) (φ₂ := .f32) bitsLt_bf16_f32 bitsLt_bf16_f32
    dot_S10000x128_S128x64_S10000x64_1_0_0_1_n_n rfl
    Cert.ReferenceIdeal.dot_S100000x128_S128x64_S100000x64_1_0_0_1_n_n rfl rows128 rows64 none none t h w

/-- What point `t` writes back is block `t` of the product of the arrays as the launch finds them. -/
theorem flushed_eq (c : Dev nD) (t : Fin cfg2.N) :
    (dat2 V c).flushed 2 t = ((cfg2.win 2).blk t).view.read (Elt Ideal) (Cert.Gcn.times64 (F := Ideal) (V c main_v42) (V c main_arg4)) := by
  show (cfg2.win 2).cut (grid2.coords t) ((dat2 V c).after 2 t) = _
  rw [after2_2]
  unfold out2_2
  rw [View.canon_unit_zero origin]
  simp only [View.ld_unit_zero (S := S10000x128) origin, View.ld_unit_zero (S := S128x64) origin]
  rw [lhs_block, rhs_block, out_block]
  exact payload_rows (blockNo t) _ _

/-- An index of the result array lies in point `t`'s block iff each coordinate is in the block's range. -/
theorem mem_block (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v43).slice (win2_2.rect t)).set ↔ _
  rw [View.set_slice_whole, Rect.mem_set_unit]
  exact Iff.rfl

/-- Every row is in some block: row `r` in block `r / 10000`. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_2 _, ?_⟩
  rw [mem_block]
  obtain ⟨-, -, -, -, e4, e5⟩ := index_maps ⟨(i 0).val / 10000, by rw [hN]; omega⟩
  intro a
  match a with
  | ⟨0, _⟩ => show win2_2.index _ (0 : Fin 2) * 10000 ≤ (i 0).val ∧ (i 0).val < win2_2.index _ (0 : Fin 2) * 10000 + 10000; rw [e4]; show (i 0).val / 10000 * 10000 ≤ (i 0).val ∧ (i 0).val < (i 0).val / 10000 * 10000 + 10000; omega
  | ⟨1, _⟩ => show win2_2.index _ (1 : Fin 2) * 64 ≤ (i 1).val ∧ (i 1).val < win2_2.index _ (1 : Fin 2) * 64 + 64; rw [e5]; omega

/-- After the launch the result array holds the product of the arrays the launch found. -/
theorem final (c : Dev nD) :
    (dat2 V c).arrAt 2 cfg2.N = Cert.Gcn.times64 (F := Ideal) (V c main_v42) (V c main_arg4) :=
  (dat2 V c).arrAt_eq_of_cover 2 _ (fun t _ => flushed_eq V c t) covered

end Cert.Gcn.Proj2

end
-- ==== Proof.Bias1.lean ====
import proofs.«168569_j17514876634158_1_alg».proof.Proof.Gen.KernelIdeal.Frame
import proofs.«168569_j17514876634158_1_alg».proof.Proof.Spec
import proofs.«168569_j17514876634158_1_alg».proof.Proof.LibRowBlock
import Idealize.ShloMosaic.Lib.Pipeline.Value

/-! # The first bias and relu: `max (a + b1, 0)`, ten thousand rows at a time

The second launch walks the 100000 rows of the aggregated messages in ten blocks of 10000. At each block it lays the
bias, kept as one row of 128 entries, under every row, adds, takes the maximum with zero and writes the same rows of
its result. Every step works row by row, so a block of the result is the block of `max (a + b1, 0)` computed on the
whole array, and the result array ends holding that. -/

noncomputable section

namespace Cert.Gcn.Bias1

open Idealize.ShloMosaic Idealize.ShloMosaic.ValueIdx Idealize.ShloMosaic.Layout Idealize.ShloMosaic.TcCoe
open Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Ten blocks of ten thousand rows. -/
theorem rows : Tiles S10000x128 S100000x128 0 10 := by decide

/-- A grid point as a block number. -/
abbrev blockNo (t : Fin cfg1.N) : Fin 10 := ⟨t.val, lt_of_lt_of_eq t.isLt N_1⟩

/-- The index maps: the messages and the result move one block of rows per point, the bias row stays. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The block of the messages the body sees at point `t` is their rows `10000·t …`. -/
theorem in_block (c : Dev nD) (t : Fin cfg1.N) :
    iblk1 V c 0 t = block S10000x128 S100000x128 0 10 (blockNo t) (V c main_v40) rows := by
  funext y
  show V c main_v40 (((cfg1.win 0).blk t).view.emb y) = V c main_v40 (rows.idx (blockNo t) y)
  refine congrArg _ ?_
  obtain ⟨e0, e1, -⟩ := index_maps t
  funext a; apply Fin.ext
  match a with
  | ⟨0, _⟩ => show win1_0.index t (0 : Fin 2) * 10000 + 1 * (y 0).val = t.val * 10000 + (y 0).val; omega
  | ⟨1, _⟩ => show win1_0.index t (1 : Fin 2) * 128 + 1 * (y 1).val = (y 1).val; omega

/-- The bias row is seen whole at every point. -/
theorem bias_block (c : Dev nD) (t : Fin cfg1.N) : iblk1 V c 1 t = V c main_v41 := by
  funext y
  show V c main_v41 (((cfg1.win 1).blk t).view.emb y) = V c main_v41 y
  refine congrArg _ ?_
  obtain ⟨-, -, e2, e3, -⟩ := index_maps t
  funext a; apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- Reading point `t`'s block of the result array is taking rows `10000·t …`. -/
theorem out_block (t : Fin cfg1.N) (G : S100000x128.Idx → Elt Ideal .f32) :
    ((cfg1.win 2).blk t).view.read (Elt Ideal) G = block S10000x128 S100000x128 0 10 (blockNo t) G rows := by
  funext y
  show G (((cfg1.win 2).blk t).view.emb y) = G (rows.idx (blockNo t) y)
  refine congrArg _ ?_
  obtain ⟨-, -, -, -, e4, e5⟩ := index_maps t
  funext a; apply Fin.ext
  match a with
  | ⟨0, _⟩ => show win1_2.index t (0 : Fin 2) * 10000 + 1 * (y 0).val = t.val * 10000 + (y 0).val; omega
  | ⟨1, _⟩ => show win1_2.index t (1 : Fin 2) * 128 + 1 * (y 1).val = (y 1).val; omega

/-- What the body computes from a block of rows and the bias row is that block of rows of `max (a + b, 0)`. -/
theorem payload_rows (t : Fin 10) (a : FVec Ideal S100000x128 .f32) (b : FVec Ideal S128 .f32) :
    k1_pay1 (F := Ideal) (block S10000x128 S100000x128 0 10 t a rows) (shapeCast S1x128 b shapeCasts_S128_S1x128)
      = block S10000x128 S100000x128 0 10 t (Cert.Gcn.biasRelu (F := Ideal) a b) rows := by
  unfold k1_pay1
  dsimp only
  rw [shapeCast_self, shapeCast_self]
  rw [Cert.RowBlock.bias_rows rows t shapeCasts_S128_S1x128 broadcasts_S1x128_S10000x128
      Cert.ReferenceIdeal.Facts₀.bcast_S128_S1x128_1 Cert.ReferenceIdeal.Facts₀.bcast_S1x128_S100000x128_0_1 b,
    Cert.RowBlock.splat_rows rows t Cert.ReferenceIdeal.Facts₀.bcast_S_S100000x128 0x00000000#32]
  rfl

/-- What point `t` writes back is block `t` of `max (a + b, 0)`, `a` the messages as the launch finds them and `b` the
    bias vector whose one-row copy the launch finds. -/
theorem flushed_eq (c : Dev nD) (b : FVec Ideal S128 .f32) (hb : V c main_v41 = shapeCast S1x128 b shapeCasts_S128_S1x128)
    (t : Fin cfg1.N) :
    (dat1 V c).flushed 2 t = ((cfg1.win 2).blk t).view.read (Elt Ideal) (Cert.Gcn.biasRelu (F := Ideal) (V c main_v40) b) := by
  show (cfg1.win 2).cut (grid1.coords t) ((dat1 V c).after 2 t) = _
  rw [after1_2]
  unfold out1_2
  rw [View.canon_unit_zero origin]
  simp only [View.ld_unit_zero (S := S10000x128) origin, View.ld_unit_zero (S := S1x128) origin]
  rw [in_block, bias_block, out_block, hb]
  exact payload_rows (blockNo t) _ b

/-- An index of the result array lies in point `t`'s block iff each coordinate is in the block's range. -/
theorem mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v42).slice (win1_2.rect t)).set ↔ _
  rw [View.set_slice_whole, Rect.mem_set_unit]
  exact Iff.rfl

/-- Every row is in some block: row `r` in block `r / 10000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  refine ⟨⟨(i 0).val / 10000, by rw [hN]; omega⟩, flush1_2 _, ?_⟩
  rw [mem_block]
  obtain ⟨-, -, -, -, e4, e5⟩ := index_maps ⟨(i 0).val / 10000, by rw [hN]; omega⟩
  intro a
  match a with
  | ⟨0, _⟩ => show win1_2.index _ (0 : Fin 2) * 10000 ≤ (i 0).val ∧ (i 0).val < win1_2.index _ (0 : Fin 2) * 10000 + 10000; rw [e4]; show (i 0).val / 10000 * 10000 ≤ (i 0).val ∧ (i 0).val < (i 0).val / 10000 * 10000 + 10000; omega
  | ⟨1, _⟩ => show win1_2.index _ (1 : Fin 2) * 128 ≤ (i 1).val ∧ (i 1).val < win1_2.index _ (1 : Fin 2) * 128 + 128; rw [e5]; omega

/-- After the launch the result array holds `max (a + b, 0)`. -/
theorem final (c : Dev nD) (b : FVec Ideal S128 .f32) (hb : V c main_v41 = shapeCast S1x128 b shapeCasts_S128_S1x128) :
    (dat1 V c).arrAt 2 cfg1.N = Cert.Gcn.biasRelu (F := Ideal) (V c main_v40) b :=
  (dat1 V c).arrAt_eq_of_cover 2 _ (fun t _ => flushed_eq V c b hb t) covered

end Cert.Gcn.Bias1

end
-- ==== Proof.Bias2.lean ====
import proofs.«168569_j17514876634158_1_alg».proof.Proof.Gen.KernelIdeal.Frame
import proofs.«168569_j17514876634158_1_alg».proof.Proof.Spec
import proofs.«168569_j17514876634158_1_alg».proof.Proof.LibRowBlock
import Idealize.ShloMosaic.Lib.Pipeline.Value

/-! # The second bias: `a + b2`, ten thousand rows at a time

The last launch walks the 100000 rows of the second layer's aggregated messages in ten blocks of 10000, lays the bias,
kept as one row of 64 entries, under every row, adds and writes the same rows of the result. A block of the result is
the block of `a + b2` computed on the whole array, and the result array ends holding that. -/

noncomputable section

namespace Cert.Gcn.Bias2

open Idealize.ShloMosaic Idealize.ShloMosaic.ValueIdx Idealize.ShloMosaic.Layout Idealize.ShloMosaic.TcCoe
open Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Ten blocks of ten thousand rows. -/
theorem rows : Tiles S10000x64 S100000x64 0 10 := by decide

/-- A grid point as a block number. -/
abbrev blockNo (t : Fin cfg3.N) : Fin 10 := ⟨t.val, lt_of_lt_of_eq t.isLt N_3⟩

/-- The index maps: the messages and the result move one block of rows per point, the bias row stays. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The block of the messages the body sees at point `t` is their rows `10000·t …`. -/
theorem in_block (c : Dev nD) (t : Fin cfg3.N) :
    iblk3 V c 0 t = block S10000x64 S100000x64 0 10 (blockNo t) (V c main_v56) rows := by
  funext y
  show V c main_v56 (((cfg3.win 0).blk t).view.emb y) = V c main_v56 (rows.idx (blockNo t) y)
  refine congrArg _ ?_
  obtain ⟨e0, e1, -⟩ := index_maps t
  funext a; apply Fin.ext
  match a with
  | ⟨0, _⟩ => show win3_0.index t (0 : Fin 2) * 10000 + 1 * (y 0).val = t.val * 10000 + (y 0).val; omega
  | ⟨1, _⟩ => show win3_0.index t (1 : Fin 2) * 64 + 1 * (y 1).val = (y 1).val; omega

/-- The bias row is seen whole at every point. -/
theorem bias_block (c : Dev nD) (t : Fin cfg3.N) : iblk3 V c 1 t = V c main_v57 := by
  funext y
  show V c main_v57 (((cfg3.win 1).blk t).view.emb y) = V c main_v57 y
  refine congrArg _ ?_
  obtain ⟨-, -, e2, e3, -⟩ := index_maps t
  funext a; apply Fin.ext
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- Reading point `t`'s block of the result array is taking rows `10000·t …`. -/
theorem out_block (t : Fin cfg3.N) (G : S100000x64.Idx → Elt Ideal .f32) :
    ((cfg3.win 2).blk t).view.read (Elt Ideal) G = block S10000x64 S100000x64 0 10 (blockNo t) G rows := by
  funext y
  show G (((cfg3.win 2).blk t).view.emb y) = G (rows.idx (blockNo t) y)
  refine congrArg _ ?_
  obtain ⟨-, -, -, -, e4, e5⟩ := index_maps t
  funext a; apply Fin.ext
  match a with
  | ⟨0, _⟩ => show win3_2.index t (0 : Fin 2) * 10000 + 1 * (y 0).val = t.val * 10000 + (y 0).val; omega
  | ⟨1, _⟩ => show win3_2.index t (1 : Fin 2) * 64 + 1 * (y 1).val = (y 1).val; omega

/-- What the body computes from a block of rows and the bias row is that block of rows of `a + b`. -/
theorem payload_rows (t : Fin 10) (a : FVec Ideal S100000x64 .f32) (b : FVec Ideal S64 .f32) :
    k3_pay1 (F := Ideal) (block S10000x64 S100000x64 0 10 t a rows) (shapeCast S1x64 b shapeCasts_S64_S1x64)
      = block S10000x64 S100000x64 0 10 t (Cert.Gcn.bias (F := Ideal) a b) rows := by
  unfold k3_pay1
  dsimp only
  rw [shapeCast_self, shapeCast_self]
  rw [Cert.RowBlock.bias_rows rows t shapeCasts_S64_S1x64 broadcasts_S1x64_S10000x64
      Cert.ReferenceIdeal.Facts₀.bcast_S64_S1x64_1 Cert.ReferenceIdeal.Facts₀.bcast_S1x64_S100000x64_0_1 b]
  rfl

/-- What point `t` writes back is block `t` of `a + b`, `a` the messages as the launch finds them and `b` the bias
    vector whose one-row copy the launch finds. -/
theorem flushed_eq (c : Dev nD) (b : FVec Ideal S64 .f32) (hb : V c main_v57 = shapeCast S1x64 b shapeCasts_S64_S1x64)
    (t : Fin cfg3.N) :
    (dat3 V c).flushed 2 t = ((cfg3.win 2).blk t).view.read (Elt Ideal) (Cert.Gcn.bias (F := Ideal) (V c main_v56) b) := by
  show (cfg3.win 2).cut (grid3.coords t) ((dat3 V c).after 2 t) = _
  rw [after3_2]
  unfold out3_2
  rw [View.canon_unit_zero origin]
  simp only [View.ld_unit_zero (S := S10000x64) origin, View.ld_unit_zero (S := S1x64) origin]
  rw [in_block, bias_block, out_block, hb]
  exact payload_rows (blockNo t) _ b

/-- An index of the result array lies in point `t`'s block iff each coordinate is in the block's range. -/
theorem mem_block (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v58).slice (win3_2.rect t)).set ↔ _
  rw [View.set_slice_whole, Rect.mem_set_unit]
  exact Iff.rfl

/-- Every row is in some block: row `r` in block `r / 10000`. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  refine ⟨⟨(i 0).val / 10000, by rw [hN]; omega⟩, flush3_2 _, ?_⟩
  rw [mem_block]
  obtain ⟨-, -, -, -, e4, e5⟩ := index_maps ⟨(i 0).val / 10000, by rw [hN]; omega⟩
  intro a
  match a with
  | ⟨0, _⟩ => show win3_2.index _ (0 : Fin 2) * 10000 ≤ (i 0).val ∧ (i 0).val < win3_2.index _ (0 : Fin 2) * 10000 + 10000; rw [e4]; show (i 0).val / 10000 * 10000 ≤ (i 0).val ∧ (i 0).val < (i 0).val / 10000 * 10000 + 10000; omega
  | ⟨1, _⟩ => show win3_2.index _ (1 : Fin 2) * 64 ≤ (i 1).val ∧ (i 1).val < win3_2.index _ (1 : Fin 2) * 64 + 64; rw [e5]; omega

/-- After the launch the result array holds `a + b`. -/
theorem final (c : Dev nD) (b : FVec Ideal S64 .f32) (hb : V c main_v57 = shapeCast S1x64 b shapeCasts_S64_S1x64) :
    (dat3 V c).arrAt 2 cfg3.N = Cert.Gcn.bias (F := Ideal) (V c main_v56) b :=
  (dat3 V c).arrAt_eq_of_cover 2 _ (fun t _ => flushed_eq V c b hb t) covered

end Cert.Gcn.Bias2

end
-- ==== Proof.Walk.lean ====
import proofs.«168569_j17514876634158_1_alg».proof.Proof.Gen.KernelIdeal.Frame
import proofs.«168569_j17514876634158_1_alg».proof.Proof.Spec
import proofs.«168569_j17514876634158_1_alg».proof.Proof.Proj1
import proofs.«168569_j17514876634158_1_alg».proof.Proof.Proj2
import proofs.«168569_j17514876634158_1_alg».proof.Proof.Bias1
import proofs.«168569_j17514876634158_1_alg».proof.Proof.Bias2
import Idealize.ShloMosaic.Lib.StableHlo.Run

/-! # What the program's buffers hold, from the launch to the return

The program is seven stretches: host operations that build the edge list and the edge weights; the first projection;
host operations that gather, weigh and sum the projected rows and lay the first bias out as a row; the bias and relu;
the second projection; host operations that gather, weigh and sum again and lay the second bias out; the last bias.
After each stretch the buffers that matter are named here as functions of the six inputs, on the extended reals:
what a host stretch writes is its operations applied to what the stretch found, what a launch writes is the whole-array
function its blocks are blocks of, and every other buffer keeps what it held. At the return the result buffer holds
the network `Cert.Gcn.output` of the inputs. -/

set_option maxRecDepth 16384

noncomputable section

namespace Cert.Gcn.Walk

open Idealize.ShloMosaic Idealize.ShloMosaic.TcCoe Idealize.ShloMosaic.StableHlo
open Idealize.SL.Sem
open Cert.KernelIdeal Cert.KernelIdeal.Gen

variable (m : (ℓ : Loc nD τ sig) → Buf (Elt Ideal) ℓ) (ρ : Dev nD → PrngReg)

/-- No operation of a literal list of host operations writes the buffer in the goal. -/
local macro "not_written" : tactic =>
  `(tactic| (refine List.forall_iff_forall_mem.mp ?_
             simp only [hostOps0, hostOps1, hostOps3, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## After the first host stretch -/

theorem src1 (c : Dev nD) : W1 m ρ c (Proc.devRef .tc main_v3) = Cert.Gcn.sources (F := Ideal) (m ((c : Thread nD τ).loc main_arg1)) := by
  show StableHlo.after hostOps0 (W0 m ρ c) (Proc.devRef .tc main_v3) = _
  dsimp only [hostOps0]
  after_results
  rfl

theorem dst1 (c : Dev nD) : W1 m ρ c (Proc.devRef .tc main_v6) = Cert.Gcn.targets (F := Ideal) (m ((c : Thread nD τ).loc main_arg1)) := by
  show StableHlo.after hostOps0 (W0 m ρ c) (Proc.devRef .tc main_v6) = _
  dsimp only [hostOps0]
  after_results
  rfl

set_option maxHeartbeats 4000000 in
theorem wt1 (c : Dev nD) : W1 m ρ c (Proc.devRef .tc main_v26) = Cert.Gcn.edgeWeight (F := Ideal) (m ((c : Thread nD τ).loc main_arg1)) := by
  show StableHlo.after hostOps0 (W0 m ρ c) (Proc.devRef .tc main_v26) = _
  dsimp only [hostOps0]
  after_results_simp
  rfl

theorem keep1 (c : Dev nD) (b : Ref sig .tc)
    (h : ∀ op ∈ (hostOps0 : List (HloOp τ sig (Elt Ideal))), Proc.devRef .tc b ∉ op.writes) :
    W1 m ρ c (Proc.devRef .tc b) = m ((c : Thread nD τ).loc b) :=
  StableHlo.after_of_forall_not_mem _ _ h

theorem x1 (c : Dev nD) : W1 m ρ c (Proc.devRef .tc main_arg0) = m ((c : Thread nD τ).loc main_arg0) := keep1 m ρ c _ (by not_written)
theorem w1_1 (c : Dev nD) : W1 m ρ c (Proc.devRef .tc main_arg2) = m ((c : Thread nD τ).loc main_arg2) := keep1 m ρ c _ (by not_written)
theorem b1_1 (c : Dev nD) : W1 m ρ c (Proc.devRef .tc main_arg3) = m ((c : Thread nD τ).loc main_arg3) := keep1 m ρ c _ (by not_written)
theorem w2_1 (c : Dev nD) : W1 m ρ c (Proc.devRef .tc main_arg4) = m ((c : Thread nD τ).loc main_arg4) := keep1 m ρ c _ (by not_written)
theorem b2_1 (c : Dev nD) : W1 m ρ c (Proc.devRef .tc main_arg5) = m ((c : Thread nD τ).loc main_arg5) := keep1 m ρ c _ (by not_written)

/-! ## After the first projection -/

theorem proj2 (c : Dev nD) : W2 m ρ c (Proc.devRef .tc main_v27)
    = Cert.Gcn.times128 (F := Ideal) (m ((c : Thread nD τ).loc main_arg0)) (m ((c : Thread nD τ).loc main_arg2)) := by
  refine (W2_arr m ρ c 2).trans ((Cert.Gcn.Proj1.final (V1 m ρ) c).trans ?_)
  show Cert.Gcn.times128 (F := Ideal) (W1 m ρ c (Proc.devRef .tc main_arg0)) (W1 m ρ c (Proc.devRef .tc main_arg2)) = _
  rw [x1, w1_1]

theorem src2 (c : Dev nD) : W2 m ρ c (Proc.devRef .tc main_v3) = Cert.Gcn.sources (F := Ideal) (m ((c : Thread nD τ).loc main_arg1)) :=
  (W2_of_ne m ρ c main_v3 (by decide)).trans (src1 m ρ c)
theorem dst2 (c : Dev nD) : W2 m ρ c (Proc.devRef .tc main_v6) = Cert.Gcn.targets (F := Ideal) (m ((c : Thread nD τ).loc main_arg1)) :=
  (W2_of_ne m ρ c main_v6 (by decide)).trans (dst1 m ρ c)
theorem wt2 (c : Dev nD) : W2 m ρ c (Proc.devRef .tc main_v26) = Cert.Gcn.edgeWeight (F := Ideal) (m ((c : Thread nD τ).loc main_arg1)) :=
  (W2_of_ne m ρ c main_v26 (by decide)).trans (wt1 m ρ c)
theorem b1_2 (c : Dev nD) : W2 m ρ c (Proc.devRef .tc main_arg3) = m ((c : Thread nD τ).loc main_arg3) :=
  (W2_of_ne m ρ c main_arg3 (by decide)).trans (b1_1 m ρ c)
theorem w2_2 (c : Dev nD) : W2 m ρ c (Proc.devRef .tc main_arg4) = m ((c : Thread nD τ).loc main_arg4) :=
  (W2_of_ne m ρ c main_arg4 (by decide)).trans (w2_1 m ρ c)
theorem b2_2 (c : Dev nD) : W2 m ρ c (Proc.devRef .tc main_arg5) = m ((c : Thread nD τ).loc main_arg5) :=
  (W2_of_ne m ρ c main_arg5 (by decide)).trans (b2_1 m ρ c)

/-! ## After the second host stretch -/

set_option maxHeartbeats 4000000 in
theorem agg3 (c : Dev nD) : W3 m ρ c (Proc.devRef .tc main_v40)
    = Cert.Gcn.spread128 (F := Ideal) (Cert.Gcn.sources (F := Ideal) (m ((c : Thread nD τ).loc main_arg1))) (Cert.Gcn.targets (F := Ideal) (m ((c : Thread nD τ).loc main_arg1)))
        (Cert.Gcn.edgeWeight (F := Ideal) (m ((c : Thread nD τ).loc main_arg1)))
        (Cert.Gcn.times128 (F := Ideal) (m ((c : Thread nD τ).loc main_arg0)) (m ((c : Thread nD τ).loc main_arg2))) := by
  show StableHlo.after hostOps1 (W2 m ρ c) (Proc.devRef .tc main_v40) = _
  dsimp only [hostOps1]
  after_results_simp
  rw [proj2, src2, dst2, wt2]
  rfl

theorem brow3 (c : Dev nD) : W3 m ρ c (Proc.devRef .tc main_v41)
    = shapeCast S1x128 (m ((c : Thread nD τ).loc main_arg3)) shapeCasts_S128_S1x128 := by
  show StableHlo.after hostOps1 (W2 m ρ c) (Proc.devRef .tc main_v41) = _
  dsimp only [hostOps1]
  after_results
  rw [b1_2]
  rfl

theorem keep3 (c : Dev nD) (b : Ref sig .tc)
    (h : ∀ op ∈ (hostOps1 : List (HloOp τ sig (Elt Ideal))), Proc.devRef .tc b ∉ op.writes) :
    W3 m ρ c (Proc.devRef .tc b) = W2 m ρ c (Proc.devRef .tc b) :=
  StableHlo.after_of_forall_not_mem _ _ h

theorem src3 (c : Dev nD) : W3 m ρ c (Proc.devRef .tc main_v3) = Cert.Gcn.sources (F := Ideal) (m ((c : Thread nD τ).loc main_arg1)) :=
  (keep3 m ρ c _ (by not_written)).trans (src2 m ρ c)
theorem dst3 (c : Dev nD) : W3 m ρ c (Proc.devRef .tc main_v6) = Cert.Gcn.targets (F := Ideal) (m ((c : Thread nD τ).loc main_arg1)) :=
  (keep3 m ρ c _ (by not_written)).trans (dst2 m ρ c)
theorem wt3 (c : Dev nD) : W3 m ρ c (Proc.devRef .tc main_v26) = Cert.Gcn.edgeWeight (F := Ideal) (m ((c : Thread nD τ).loc main_arg1)) :=
  (keep3 m ρ c _ (by not_written)).trans (wt2 m ρ c)
theorem w2_3 (c : Dev nD) : W3 m ρ c (Proc.devRef .tc main_arg4) = m ((c : Thread nD τ).loc main_arg4) :=
  (keep3 m ρ c _ (by not_written)).trans (w2_2 m ρ c)
theorem b2_3 (c : Dev nD) : W3 m ρ c (Proc.devRef .tc main_arg5) = m ((c : Thread nD τ).loc main_arg5) :=
  (keep3 m ρ c _ (by not_written)).trans (b2_2 m ρ c)

/-! ## After the bias and relu -/

theorem hid4 (c : Dev nD) : W4 m ρ c (Proc.devRef .tc main_v42)
    = Cert.Gcn.hidden (F := Ideal) (m ((c : Thread nD τ).loc main_arg0)) (m ((c : Thread nD τ).loc main_arg1))
        (m ((c : Thread nD τ).loc main_arg2)) (m ((c : Thread nD τ).loc main_arg3)) := by
  refine (W4_arr m ρ c 2).trans ((Cert.Gcn.Bias1.final (V3 m ρ) c (m ((c : Thread nD τ).loc main_arg3)) (brow3 m ρ c)).trans ?_)
  show Cert.Gcn.biasRelu (F := Ideal) (W3 m ρ c (Proc.devRef .tc main_v40)) _ = _
  rw [agg3]
  rfl

theorem src4 (c : Dev nD) : W4 m ρ c (Proc.devRef .tc main_v3) = Cert.Gcn.sources (F := Ideal) (m ((c : Thread nD τ).loc main_arg1)) :=
  (W4_of_ne m ρ c main_v3 (by decide)).trans (src3 m ρ c)
theorem dst4 (c : Dev nD) : W4 m ρ c (Proc.devRef .tc main_v6) = Cert.Gcn.targets (F := Ideal) (m ((c : Thread nD τ).loc main_arg1)) :=
  (W4_of_ne m ρ c main_v6 (by decide)).trans (dst3 m ρ c)
theorem wt4 (c : Dev nD) : W4 m ρ c (Proc.devRef .tc main_v26) = Cert.Gcn.edgeWeight (F := Ideal) (m ((c : Thread nD τ).loc main_arg1)) :=
  (W4_of_ne m ρ c main_v26 (by decide)).trans (wt3 m ρ c)
theorem w2_4 (c : Dev nD) : W4 m ρ c (Proc.devRef .tc main_arg4) = m ((c : Thread nD τ).loc main_arg4) :=
  (W4_of_ne m ρ c main_arg4 (by decide)).trans (w2_3 m ρ c)
theorem b2_4 (c : Dev nD) : W4 m ρ c (Proc.devRef .tc main_arg5) = m ((c : Thread nD τ).loc main_arg5) :=
  (W4_of_ne m ρ c main_arg5 (by decide)).trans (b2_3 m ρ c)

/-! ## After the second projection -/

theorem proj5 (c : Dev nD) : W5 m ρ c (Proc.devRef .tc main_v43)
    = Cert.Gcn.times64 (F := Ideal) (Cert.Gcn.hidden (F := Ideal) (m ((c : Thread nD τ).loc main_arg0)) (m ((c : Thread nD τ).loc main_arg1))
        (m ((c : Thread nD τ).loc main_arg2)) (m ((c : Thread nD τ).loc main_arg3))) (m ((c : Thread nD τ).loc main_arg4)) := by
  refine (W5_arr m ρ c 2).trans ((Cert.Gcn.Proj2.final (V4 m ρ) c).trans ?_)
  show Cert.Gcn.times64 (F := Ideal) (W4 m ρ c (Proc.devRef .tc main_v42)) (W4 m ρ c (Proc.devRef .tc main_arg4)) = _
  rw [hid4, w2_4]

theorem src5 (c : Dev nD) : W5 m ρ c (Proc.devRef .tc main_v3) = Cert.Gcn.sources (F := Ideal) (m ((c : Thread nD τ).loc main_arg1)) :=
  (W5_of_ne m ρ c main_v3 (by decide)).trans (src4 m ρ c)
theorem dst5 (c : Dev nD) : W5 m ρ c (Proc.devRef .tc main_v6) = Cert.Gcn.targets (F := Ideal) (m ((c : Thread nD τ).loc main_arg1)) :=
  (W5_of_ne m ρ c main_v6 (by decide)).trans (dst4 m ρ c)
theorem wt5 (c : Dev nD) : W5 m ρ c (Proc.devRef .tc main_v26) = Cert.Gcn.edgeWeight (F := Ideal) (m ((c : Thread nD τ).loc main_arg1)) :=
  (W5_of_ne m ρ c main_v26 (by decide)).trans (wt4 m ρ c)
theorem b2_5 (c : Dev nD) : W5 m ρ c (Proc.devRef .tc main_arg5) = m ((c : Thread nD τ).loc main_arg5) :=
  (W5_of_ne m ρ c main_arg5 (by decide)).trans (b2_4 m ρ c)

/-! ## After the third host stretch -/

set_option maxHeartbeats 4000000 in
theorem agg6 (c : Dev nD) : W6 m ρ c (Proc.devRef .tc main_v56)
    = Cert.Gcn.spread64 (F := Ideal) (Cert.Gcn.sources (F := Ideal) (m ((c : Thread nD τ).loc main_arg1))) (Cert.Gcn.targets (F := Ideal) (m ((c : Thread nD τ).loc main_arg1)))
        (Cert.Gcn.edgeWeight (F := Ideal) (m ((c : Thread nD τ).loc main_arg1)))
        (Cert.Gcn.times64 (F := Ideal) (Cert.Gcn.hidden (F := Ideal) (m ((c : Thread nD τ).loc main_arg0)) (m ((c : Thread nD τ).loc main_arg1))
          (m ((c : Thread nD τ).loc main_arg2)) (m ((c : Thread nD τ).loc main_arg3))) (m ((c : Thread nD τ).loc main_arg4))) := by
  show StableHlo.after hostOps3 (W5 m ρ c) (Proc.devRef .tc main_v56) = _
  dsimp only [hostOps3]
  after_results_simp
  rw [proj5, src5, dst5, wt5]
  rfl

theorem brow6 (c : Dev nD) : W6 m ρ c (Proc.devRef .tc main_v57)
    = shapeCast S1x64 (m ((c : Thread nD τ).loc main_arg5)) shapeCasts_S64_S1x64 := by
  show StableHlo.after hostOps3 (W5 m ρ c) (Proc.devRef .tc main_v57) = _
  dsimp only [hostOps3]
  after_results
  rw [b2_5]
  rfl

/-! ## At the return -/

/-- The result buffer ends holding the network of the six inputs. -/
theorem result (c : Dev nD) : W7 m ρ c (Proc.devRef .tc main_v58)
    = Cert.Gcn.output (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (W7_arr m ρ c 2).trans ((Cert.Gcn.Bias2.final (V6 m ρ) c (m ((c : Thread nD τ).loc main_arg5)) (brow6 m ρ c)).trans ?_)
  show Cert.Gcn.bias (F := Ideal) (W6 m ρ c (Proc.devRef .tc main_v56)) _ = _
  rw [agg6]
  rfl

end Cert.Gcn.Walk

end
-- ==== Proof.RefSpec.lean ====
import proofs.«168569_j17514876634158_1_alg».proof.Proof.Spec
import proofs.«168569_j17514876634158_1_alg».proof.Proof.Gen.ReferenceIdeal.Run

/-! # The reference computes the network

The reference's result, composed from its host operations, is `Cert.Gcn.output` of its arguments: the same
operations in the same order, the edge weights written out once per layer. -/

set_option maxRecDepth 8192

noncomputable section

namespace Cert.Gcn

open Idealize.ShloMosaic Idealize.ShloMosaic.TcCoe Idealize.SL.Sem Cert.ReferenceIdeal

variable {F : FTy → Type} [FloatOps F]

theorem reference_result (m : (ℓ : Loc nD τ sig) → Buf (Elt F) ℓ) (c : Dev nD) :
    Cert.ReferenceIdeal.Value.res_main_v81 m c
      = output (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v81 output hidden bias biasRelu spread64 spread128 times64 times128 edgeWeight invSqrtDegree wrapped sources targets
  rfl

end Cert.Gcn

end
-- ==== Proof.lean ====
/- Two graph-convolution layers: the tiled program against the plain one, on the extended reals.

   Both programs build the same edge list (every node given a loop to itself), the same degrees and the same edge
   weights with the same host operations, and both gather, weigh and sum rows with the same host operations. They differ
   in four places. Where the plain program multiplies the whole feature array by a weight matrix, the tiled one runs a
   launch that multiplies ten blocks of 10000 rows, each rounded to a narrower format first; on the extended reals the
   rounding is the identity and a product of a block of rows is the block of rows of the product. Where the plain program
   adds a bias row to every row (and after the first layer takes the maximum with zero), the tiled one runs a launch that
   does so block by block; these operations work row by row. So each launch leaves in its result array exactly what the
   plain program's operation computes (Proof/Proj1.lean, Proof/Bias1.lean, Proof/Proj2.lean, Proof/Bias2.lean), the buffers
   between the launches are carried by the host operations both programs share (Proof/Walk.lean), and both results are one
   function of the six inputs, `Cert.Gcn.output` (Proof/Spec.lean; the plain program's result is that function by
   unfolding, Proof/RefSpec.lean). No law of arithmetic beyond this is used, so the inputs' finiteness is never opened.
   Reading the tiled program on the extended reals rewrote none of its operations, so nothing is asked about that step. -/
import proofs.«168569_j17514876634158_1_alg».proof.Defs
import proofs.«168569_j17514876634158_1_alg».proof.Proof.Gen.Kernel
import proofs.«168569_j17514876634158_1_alg».proof.Proof.Gen.Kernel.Frame
import proofs.«168569_j17514876634158_1_alg».proof.Proof.Gen.KernelIdeal
import proofs.«168569_j17514876634158_1_alg».proof.Proof.Gen.KernelIdeal.Frame
import proofs.«168569_j17514876634158_1_alg».proof.Proof.Gen.ReferenceIdeal
import proofs.«168569_j17514876634158_1_alg».proof.Proof.Gen.ReferenceIdeal.Run
import proofs.«168569_j17514876634158_1_alg».proof.Proof.Gen.Pre_finite_inputs
import proofs.«168569_j17514876634158_1_alg».proof.Proof.KernelRun
import proofs.«168569_j17514876634158_1_alg».proof.Proof.Walk
import proofs.«168569_j17514876634158_1_alg».proof.Proof.RefSpec
import Idealize.ShloMosaic.Adequacy
import Idealize.ShloMosaic.Init

noncomputable section

namespace Cert.Proof

open Idealize.ShloMosaic Idealize.ShloMosaic.TcCoe Idealize.SL.Sem

/-- The tiled program runs and leaves its arguments as they were. -/
theorem frame_tiled : Cert.frame_Kernel := fun m ρ _ => Cert.Kernel.Gen.frame m ρ

/-- So does its reading on the extended reals. -/
theorem frame_tiled_ideal : Cert.frame_KernelIdeal := fun m ρ _ => Cert.KernelIdeal.Gen.frame m ρ

/-- The plain program runs and leaves its arguments as they were: its run with the result dropped. -/
theorem frame_plain : Cert.frame_ReferenceIdeal := fun m ρ _ =>
  (θ_run Cert.ReferenceIdeal.defs _ _).mono (fun _ h c => (h c).2) (Cert.ReferenceIdeal.Value.run (F := Ideal) m ρ)

/-- From memories that agree on the six inputs both programs end with the network of those inputs in their result. -/
theorem algebraic : Cert.algebraic_KernelIdeal_ReferenceIdeal := by
  intro m ρ m' ρ' _ hagree
  refine ⟨fun c => Cert.Gcn.output (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.Walk.result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5⟩ := hagree c
    rw [Cert.Gcn.reference_result, h0, h1, h2, h3, h4, h5]

theorem claim : Cert.Claim :=
  ⟨Cert.Kernel.Gen.facts, Cert.KernelIdeal.Gen.facts, Cert.ReferenceIdeal.Gen.facts, Cert.Pre_finite_inputs.Gen.facts,
    frame_tiled, frame_tiled_ideal, frame_plain, trivial, algebraic⟩

end Cert.Proof

end
